-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512x64 : Shape := ⟨4, ![8, 256, 512, 64]⟩
abbrev S_ : Shape := ⟨0, ![]⟩

class Facts : Prop where
  bcast_S_S8x256x512x64 : S_.BroadcastsInDim S8x256x512x64 (![] : Fin 0 → Fin S8x256x512x64.rank)
  reducesTo_S8x256x512x64_S_d0_1_2_3 : S8x256x512x64.ReducesTo [0, 1, 2, 3] S_
  h_S_ : 0 < S_.numel

variable [Facts]

def fn {F : FTy → Type} [FloatOps F] (main_arg0 : FVec F S8x256x512x64 .f32) : IVec S_ 1 :=
  let main_v0 : FVec F S8x256x512x64 .f32 := Host.absf main_arg0
  let main_cst : FVec F S_ .f32 := constant S_ .f32 0x7F800000#32
  let main_v1 : FVec F S8x256x512x64 .f32 := broadcastInDim S8x256x512x64 ![] bcast_S_S8x256x512x64 main_cst
  let main_v2 : IVec S8x256x512x64 1 := cmpf .olt main_v0 main_v1
  let main_c : IVec S_ 1 := constantI S_ 1 1#1
  let main_v3 : IVec S_ 1 := (fun x v => Host.reduce IntOp.andi x v reducesTo_S8x256x512x64_S_d0_1_2_3 h_S_) main_v2 main_c
  main_v3
-- ==== Kernel.lean ====
abbrev S8x256x512x64 : Shape := ⟨4, ![8, 256, 512, 64]⟩
abbrev S2048x512x64 : Shape := ⟨3, ![2048, 512, 64]⟩
abbrev S2048x512 : Shape := ⟨2, ![2048, 512]⟩
abbrev S32x512x64 : Shape := ⟨3, ![32, 512, 64]⟩
abbrev S32x512 : Shape := ⟨2, ![32, 512]⟩
abbrev S8x256x512 : Shape := ⟨3, ![8, 256, 512]⟩

abbrev nBuf : Space → Nat
  | .hbm => 4
  | .vmem => 4
  | .smem => 0
  | _ => 0

abbrev bufTy : (tb : Table) → Fin (tcTables nBuf tb) → BufTy
  | .hbm, ⟨0, _⟩ => ⟨S8x256x512x64, .f32⟩
  | .hbm, ⟨1, _⟩ => ⟨S2048x512x64, .f32⟩
  | .hbm, ⟨2, _⟩ => ⟨S2048x512, .f32⟩
  | .hbm, ⟨3, _⟩ => ⟨S8x256x512, .f32⟩
  | .local _ .vmem, ⟨0, _⟩ => ⟨S32x512x64, .f32⟩
  | .local _ .vmem, ⟨1, _⟩ => ⟨S32x512x64, .f32⟩
  | .local _ .vmem, ⟨2, _⟩ => ⟨S32x512, .f32⟩
  | .local _ .vmem, ⟨3, _⟩ => ⟨S32x512, .f32⟩
  | _, _ => ⟨S8x256x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x256x512x64_S2048x512x64 : S8x256x512x64.ShapeCasts S2048x512x64
  inb_S32x512x64_S32x512x64_0_0_0 : ∀ a, (![0, 0, 0] : Fin 3 → Nat) a + S32x512x64.size a ≤ S32x512x64.size a
  h_S32x512x64 : 0 < S32x512x64.numel
  shapeCasts_S32x512x64_S32x512x64 : S32x512x64.ShapeCasts S32x512x64
  reduces_S32x512x64_S32x512 : S32x512x64.Reduces [2] S32x512
  inb_S32x512_S32x512_0_0 : ∀ a, (![0, 0] : Fin 2 → Nat) a + S32x512.size a ≤ S32x512.size a
  h_S32x512 : 0 < S32x512.numel
  shapeCasts_S2048x512_S8x256x512 : S2048x512.ShapeCasts S8x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x512x64.size a ≤ S2048x512x64.size a
  hwx0_0 : ∀ i : grid0.Coords, EltTy.bits .f32 = 32 ∨ (Rect.block (s := S2048x512x64) S32x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S2048x512.size a
  hwx0_1 : ∀ i : grid0.Coords, EltTy.bits .f32 = 32 ∨ (Rect.block (s := S2048x512) S32x512.size (cc0_transform_1 i) (hinb0_1 i)).WholeWords (EltTy.packing .f32)

variable [Facts₀]

abbrev win0_0 : Pipeline.Window sig grid0 :=
  Pipeline.Window.ofSpec (Memref.whole main_v0) S32x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x256x512x64 : Shape := ⟨4, ![8, 256, 512, 64]⟩
abbrev S_ : Shape := ⟨0, ![]⟩
abbrev S8x256x512 : Shape := ⟨3, ![8, 256, 512]⟩
abbrev S8x256x512x1 : Shape := ⟨4, ![8, 256, 512, 1]⟩

abbrev nBuf : Space → Nat
  | .hbm => 65
  | .vmem => 0
  | .smem => 0
  | _ => 0

abbrev bufTy : (tb : Table) → Fin (tcTables nBuf tb) → BufTy
  | .hbm, ⟨0, _⟩ => ⟨S8x256x512x64, .f32⟩
  | .hbm, ⟨1, _⟩ => ⟨S_, .i32⟩
  | .hbm, ⟨2, _⟩ => ⟨S_, .f32⟩
  | .hbm, ⟨3, _⟩ => ⟨S8x256x512, .f32⟩
  | .hbm, ⟨4, _⟩ => ⟨S8x256x512x1, .f32⟩
  | .hbm, ⟨5, _⟩ => ⟨S_, .f32⟩
  | .hbm, ⟨6, _⟩ => ⟨S8x256x512x1, .f32⟩
  | .hbm, ⟨7, _⟩ => ⟨S8x256x512x1, .f32⟩
  | .hbm, ⟨8, _⟩ => ⟨S8x256x512x64, .f32⟩
  | .hbm, ⟨9, _⟩ => ⟨S8x256x512x64, .f32⟩
  | .hbm, ⟨10, _⟩ => ⟨S8x256x512x64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x256x512, .f32⟩
  | .hbm, ⟨16, _⟩ => ⟨S8x256x512x1, .f32⟩
  | .hbm, ⟨17, _⟩ => ⟨S8x256x512x1, .f32⟩
  | .hbm, ⟨18, _⟩ => ⟨S8x256x512x1, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S8x256x512x1, .f32⟩
  | .hbm, ⟨24, _⟩ => ⟨S8x256x512x1, .f32⟩
  | .hbm, ⟨25, _⟩ => ⟨S8x256x512x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8x256x512x64, .f32⟩
  | .hbm, ⟨34, _⟩ => ⟨S8x256x512x64, .f32⟩
  | .hbm, ⟨35, _⟩ => ⟨S8x256x512x64, .f32⟩
  | .hbm, ⟨36, _⟩ => ⟨S_, .f32⟩
  | .hbm, ⟨37, _⟩ => ⟨S8x256x512, .f32⟩
  | .hbm, ⟨38, _⟩ => ⟨S8x256x512x1, .f32⟩
  | .hbm, ⟨39, _⟩ => ⟨S_, .f32⟩
  | .hbm, ⟨40, _⟩ => ⟨S_, .f32⟩
  | .hbm, ⟨41, _⟩ => ⟨S8x256x512x1, .f32⟩
  | .hbm, ⟨42, _⟩ => ⟨S8x256x512x1, .f32⟩
  | .hbm, ⟨43, _⟩ => ⟨S_, .f32⟩
  | .hbm, ⟨44, _⟩ => ⟨S8x256x512, .f32⟩
  | .hbm, ⟨45, _⟩ => ⟨S8x256x512x1, .f32⟩
  | .hbm, ⟨46, _⟩ => ⟨S_, .f32⟩
  | .hbm, ⟨47, _⟩ => ⟨S8x256x512x1, .f32⟩
  | .hbm, ⟨48, _⟩ => ⟨S8x256x512x1, .f32⟩
  | .hbm, ⟨49, _⟩ => ⟨S8x256x512x1, .f32⟩
  | .hbm, ⟨50, _⟩ => ⟨S8x256x512x1, .f32⟩
  | .hbm, ⟨51, _⟩ => ⟨S8x256x512x64, .f32⟩
  | .hbm, ⟨52, _⟩ => ⟨S8x256x512x64, .f32⟩
  | .hbm, ⟨53, _⟩ => ⟨S_, .f32⟩
  | .hbm, ⟨54, _⟩ => ⟨S8x256x512, .f32⟩
  | .hbm, ⟨55, _⟩ => ⟨S_, .f32⟩
  | .hbm, ⟨56, _⟩ => ⟨S8x256x512, .f32⟩
  | .hbm, ⟨57, _⟩ => ⟨S8x256x512, .f32⟩
  | .hbm, ⟨58, _⟩ => ⟨S8x256x512x64, .f32⟩
  | .hbm, ⟨59, _⟩ => ⟨S_, .f32⟩
  | .hbm, ⟨60, _⟩ => ⟨S8x256x512, .f32⟩
  | .hbm, ⟨61, _⟩ => ⟨S_, .f32⟩
  | .hbm, ⟨62, _⟩ => ⟨S8x256x512, .f32⟩
  | .hbm, ⟨63, _⟩ => ⟨S8x256x512, .f32⟩
  | .hbm, ⟨64, _⟩ => ⟨S8x256x512, .f32⟩
  | _, _ => ⟨S8x256x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_call0_cst : Ref sig .tc := ⟨.hbm, 2, rfl⟩
abbrev main_call0_call0_v0 : Ref sig .tc := ⟨.hbm, 3, rfl⟩
abbrev main_call0_call0_v1 : Ref sig .tc := ⟨.hbm, 4, rfl⟩
abbrev main_call0_call0_cst_0 : Ref sig .tc := ⟨.hbm, 5, rfl⟩
abbrev main_call0_call0_v2 : Ref sig .tc := ⟨.hbm, 6, rfl⟩
abbrev main_call0_call0_v3 : Ref sig .tc := ⟨.hbm, 7, rfl⟩
abbrev main_call0_call0_v4 : Ref sig .tc := ⟨.hbm, 8, rfl⟩
abbrev main_call0_call0_v5 : Ref sig .tc := ⟨.hbm, 9, rfl⟩
abbrev main_call0_call0_v6 : Ref sig .tc := ⟨.hbm, 10, rfl⟩
abbrev main_call0_call0_v7 : Ref sig .tc := ⟨.hbm, 11, rfl⟩
abbrev main_call0_call0_cst_1 : Ref sig .tc := ⟨.hbm, 12, rfl⟩
abbrev main_call0_call0_v8 : Ref sig .tc := ⟨.hbm, 13, rfl⟩
abbrev main_call0_call0_cst_2 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_call0_v12 : Ref sig .tc := ⟨.hbm, 18, rfl⟩
abbrev main_call0_call0_cst_3 : Ref sig .tc := ⟨.hbm, 19, rfl⟩
abbrev main_call0_call0_v13 : Ref sig .tc := ⟨.hbm, 20, rfl⟩
abbrev main_call0_call0_cst_4 : Ref sig .tc := ⟨.hbm, 21, rfl⟩
abbrev main_call0_call0_call0_v0 : Ref sig .tc := ⟨.hbm, 22, rfl⟩
abbrev main_call0_call0_call0_v1 : Ref sig .tc := ⟨.hbm, 23, rfl⟩
abbrev main_call0_v0 : Ref sig .tc := ⟨.hbm, 24, rfl⟩
abbrev main_v0 : Ref sig .tc := ⟨.hbm, 25, rfl⟩
abbrev main_cst : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_cst_1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_cst_3 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_cst_5 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_6 : Ref sig .tc := ⟨.hbm, 53, rfl⟩
abbrev main_v21 : Ref sig .tc := ⟨.hbm, 54, rfl⟩
abbrev main_cst_7 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_cst_8 : Ref sig .tc := ⟨.hbm, 59, rfl⟩
abbrev main_v25 : Ref sig .tc := ⟨.hbm, 60, rfl⟩
abbrev main_cst_9 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩

abbrev nD : Nat := 1
abbrev τ : Topo := Topo.v7x

variable {F : FTy → Type} [FloatOps F]

class Facts₀ : Prop where
  reducesTo_S8x256x512x64_S8x256x512_d3 : S8x256x512x64.ReducesTo [3] S8x256x512
  h_S_ : 0 < S_.numel
  bcast_S8x256x512_S8x256x512x1_0_1_2 : S8x256x512.BroadcastsInDim S8x256x512x1 (![0, 1, 2] : Fin 3 → Fin S8x256x512x1.rank)
  bcast_S_S8x256x512x1 : S_.BroadcastsInDim S8x256x512x1 (![] : Fin 0 → Fin S8x256x512x1.rank)
  bcast_S8x256x512x1_S8x256x512x64_0_1_2_3 : S8x256x512x1.BroadcastsInDim S8x256x512x64 (![0, 1, 2, 3] : Fin 4 → Fin S8x256x512x64.rank)
  reducesTo_S8x256x512x1_S_d0_1_2_3 : S8x256x512x1.ReducesTo [0, 1, 2, 3] S_
  bcast_S_S8x256x512x64 : S_.BroadcastsInDim S8x256x512x64 (![] : Fin 0 → Fin S8x256x512x64.rank)
  reducesTo_S8x256x512x1_S8x256x512_d3 : S8x256x512x1.ReducesTo [3] S8x256x512
  bcast_S_S8x256x512 : S_.BroadcastsInDim S8x256x512 (![] : Fin 0 → Fin S8x256x512.rank)

variable [Facts₀]

class Facts : Prop extends Facts₀ where

variable [Facts]
-- ==== Proof.Spec.lean ====
/-
  The common value of both programs: the mean of the input over its last axis.

  For an input `x` over [8, 256, 512, 64] the result at (b, c, g) is the sum of the 64 entries x(b, c, g, ·) divided by
  sixty-four (the float pattern of 64.0, read as an extended real). Beside it, the two properties of an array of extended
  reals the reference's chain of operations is followed with: every entry a real number, and every entry a
  non-negative real number.
-/
import Idealize.ShloMosaic.PureOps.Ideal
import Idealize.ShloMosaic.Lib.ValueIdx

noncomputable section

namespace Cert.MeanSpec

open Idealize.ShloMosaic Idealize.ShloMosaic.ValueIdx

/-- The input's shape and the result's. -/
abbrev SX : Shape := ⟨4, ![8, 256, 512, 64]⟩
abbrev SO : Shape := ⟨3, ![8, 256, 512]⟩

/-- The mean over the last axis: at (b, c, g) the sum over k of x(b, c, g, k), divided by 64. -/
def meanK (x : FVec Ideal SX .f32) : FVec Ideal SO .f32 := fun j =>
  Ideal.div (∑ k : Fin 64, x (ix4 (n0 := 8) (n1 := 256) (n2 := 512) (n3 := 64) (j 0) (j 1) (j 2) k))
    (Ideal.ofBits .f32 0x42800000#32)

/-- Every entry of the array is a real number (neither infinity). -/
def RealV {s : Shape} (v : s.Idx → EReal) : Prop := ∀ i, ∃ r : ℝ, v i = (r : EReal)

/-- Every entry of the array is a non-negative real number. -/
def NonnegV {s : Shape} (v : s.Idx → EReal) : Prop := ∀ i, ∃ r : ℝ, 0 ≤ r ∧ v i = (r : EReal)

theorem NonnegV.real {s : Shape} {v : s.Idx → EReal} (h : NonnegV v) : RealV v :=
  fun i => let ⟨r, _, hr⟩ := h i; ⟨r, hr⟩

end Cert.MeanSpec

end
-- ==== Proof.KerValue.lean ====
/-
  The kernel's program computes the mean of its argument over the last axis.

  The argument x over [8, 256, 512, 64] has its two leading axes merged to [2048, 512, 64]; the grid's 64 points each
  take a block of 32 rows of that array, [32, 512, 64], and store for each (p, q) of the block the sum of its 64 entries
  (p, q, ·) divided by sixty-four; the 64 blocks of [32, 512] tile the [2048, 512] array of row means, whose leading axis
  is then split to [8, 256, 512]. Every value is an extended real and every operation exact, so the result at (b, c, g)
  is the sum over k of x(b, c, g, k) divided by sixty-four: merged row b * 256 + c is row (b, c), and it lies in the
  block of point (b * 256 + c) / 32.
-/
import proofs.«414761_j41188736369107_3_alg».proof.KernelIdeal
import proofs.«414761_j41188736369107_3_alg».proof.Proof.Gen.KernelIdeal.Frame
import proofs.«414761_j41188736369107_3_alg».proof.Proof.Spec
import Idealize.ShloMosaic.Lib.Pipeline.Value
import Idealize.ShloMosaic.Lib.ValueIdx
import Idealize.ShloMosaic.PureOps.Ideal.Laws

noncomputable section

namespace Cert.KernelIdeal.MeanValue

open Idealize.ShloMosaic Idealize.ShloMosaic.TcCoe Idealize.SL.Sem Cert.KernelIdeal Cert.KernelIdeal.Gen Cert.MeanSpec
open Idealize.ShloMosaic.ValueIdx

/-! ## The row means of the merged array, and the body's arithmetic at an index -/

/-- The divisor: the float pattern of 64.0 read as an extended real. -/
abbrev c64 : EReal := Ideal.ofBits .f32 0x42800000#32

/-- The mean of each row of 64 entries, over the whole [2048, 512, 64] array: at (r, g) the sum over k of the entries
    (r, g, k), divided by sixty-four. -/
def rowMean (X : FVec Ideal S2048x512x64 .f32) : FVec Ideal S2048x512 .f32 := fun i =>
  Ideal.div (∑ k : Fin 64, X (ix3 (n0 := 2048) (n1 := 512) (n2 := 64) (i 0) (i 1) k)) c64

/-- The sum along the last axis of a [32, 512, 64] block, at (p, q): the sum over k of the block at (p, q, k). -/
theorem laneSum_apply (v : FVec Ideal S32x512x64 .f32) (hφ : FKind.Formats .f32)
    (hacc : (0x00000000#32 : BitVec 32) = FKind.add.neutral .f32 hφ) (p : Fin 32) (q : Fin 512) :
    multiReduction (F := Ideal) .add [2] S32x512 v 0x00000000#32 reduces_S32x512x64_S32x512 hφ hacc (ix2 p q)
      = ∑ k : Fin 64, v (ix3 p q k) := by
  refine (Ideal.multiReduction_add_single v 0x00000000#32 reduces_S32x512x64_S32x512 hφ hacc (ix2 p q)).trans ?_
  refine Finset.sum_congr rfl fun k _ => congrArg v ?_
  funext a
  match a with
  | ⟨0, _⟩ => rfl
  | ⟨1, _⟩ => rfl
  | ⟨2, _⟩ => rfl

/-- The body's stored value at (p, q) of its [32, 512] block: the sum of the 64 entries of the loaded block at
    (p, q, ·), divided by sixty-four. The cast of the block to its own shape is the identity, the quotient is taken
    entry by entry, and the divisor is the same constant at every entry. -/
theorem pay_apply (x0 : Vec Ideal S32x512x64 .f32) (p : Fin 32) (q : Fin 512) :
    k0_pay1 (F := Ideal) x0 (ix2 p q) = Ideal.div (∑ k : Fin 64, x0 (ix3 p q k)) c64 := by
  unfold k0_pay1
  dsimp only
  rw [shapeCast_self]
  refine (divf_apply _ _ (ix2 p q)).trans ?_
  refine congrArg (fun z => Ideal.div z c64) ?_
  exact laneSum_apply x0 _ _ p q

/-- A [32, 512] block of row means from a [32, 512, 64] block of the array: when the loaded block holds rows
    32 b … 32 b + 31 of the array, the stored value at (p, q) is the array's row mean at (32 b + p, q). -/
theorem block_rowMean (X : FVec Ideal S2048x512x64 .f32) (x0 : Vec Ideal S32x512x64 .f32) (b : Nat)
    (hx : ∀ (y : S32x512x64.Idx) (i : S2048x512x64.Idx), (i 0).val = b * 32 + (y 0).val → (i 1).val = (y 1).val →
      (i 2).val = (y 2).val → x0 y = X i)
    (y : S32x512.Idx) (i : S2048x512.Idx) (h0 : (i 0).val = b * 32 + (y 0).val) (h1 : (i 1).val = (y 1).val) :
    k0_pay1 (F := Ideal) x0 y = rowMean X i := by
  obtain ⟨p, q, rfl⟩ : ∃ (p : Fin 32) (q : Fin 512), y = ix2 p q := ⟨y 0, y 1, eq_ix2 y⟩
  rw [pay_apply]
  unfold rowMean
  refine congrArg (fun z => Ideal.div z c64) (Finset.sum_congr rfl fun k _ => ?_)
  exact hx _ _ h0 h1 rfl

/-! ## The two changes of shape, read at an index -/

/-- Merging the two leading axes, [8, 256, 512, 64] to [2048, 512, 64]: row b * 256 + c of the merged array is
    row (b, c) of the original (the two have the same row-major position). -/
theorem mergeRows_apply (M : S8x256x512x64.Idx → EReal) (b : Fin 8) (cc : Fin 256) (g : Fin 512) (k : Fin 64) :
    shapeCast S2048x512x64 M shapeCasts_S8x256x512x64_S2048x512x64
        (ix3 (n0 := 2048) (n1 := 512) (n2 := 64) ⟨b.val * 256 + cc.val, by omega⟩ g k)
      = M (ix4 b cc g k) := by
  refine shapeCast_apply M _ _ (ix4 b cc g k) ?_
  rw [Shape.rowMajor_val_four, Shape.rowMajor_val_three]
  rfl

/-- Splitting the leading axis, [2048, 512] to [8, 256, 512]: entry (b, c, g) of the split array is entry
    (b * 256 + c, g) of the original. -/
theorem splitRows_apply (Y : S2048x512.Idx → EReal) (b : Fin 8) (cc : Fin 256) (g : Fin 512) :
    shapeCast S8x256x512 Y shapeCasts_S2048x512_S8x256x512 (ix3 b cc g)
      = Y (ix2 (n0 := 2048) (n1 := 512) ⟨b.val * 256 + cc.val, by omega⟩ g) := by
  refine shapeCast_apply Y _ _ _ ?_
  rw [Shape.rowMajor_val_two, Shape.rowMajor_val_three]
  rfl

/-! ## From the 64 blocks to the array of row means -/

section Blocks

variable (m : (ℓ : Loc nD τ sig) → Buf (Elt Ideal) ℓ)

/-- The zero offsets of an access to a whole block, as the constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The two windows' block indices, decided over the 64 grid points: point t reads block (t, 0, 0) of the input and
    writes block (t, 0) of the output. -/
theorem idx_facts : ∀ t : Fin cfg0.N, win0_0.index t (0 : Fin 3) = t.val
    ∧ win0_0.index t (1 : Fin 3) = 0 ∧ win0_0.index t (2 : Fin 3) = 0
    ∧ win0_1.index t (0 : Fin 2) = t.val ∧ win0_1.index t (1 : Fin 2) = 0 :=
  (by decide +kernel : ∀ t : Fin grid0.N, _)

/-- The input block at point t holds rows 32 t … 32 t + 31 of the array the region reads: a block's coordinate in the
    array is the block index times the block's size plus the coordinate inside the block. -/
theorem iblk_apply (c : Dev nD) (t : Fin cfg0.N) (y : S32x512x64.Idx) (i : S2048x512x64.Idx)
    (h0 : (i 0).val = t.val * 32 + (y 0).val) (h1 : (i 1).val = (y 1).val) (h2 : (i 2).val = (y 2).val) :
    (iblk m c 0 t : Vec Ideal S32x512x64 .f32) y = (V m c main_v0 : S2048x512x64.Idx → EReal) i := by
  obtain ⟨e0, e1, e2, -, -⟩ := idx_facts t
  unfold iblk
  rw [View.read_apply]
  show V m c main_v0 _ = V m c main_v0 _
  refine congrArg (V m c main_v0) ?_
  funext a
  apply Fin.ext
  match a with
  | ⟨0, _⟩ => show win0_0.index t (0 : Fin 3) * 32 + 1 * (y 0).val = (i 0).val; rw [e0, h0]; omega
  | ⟨1, _⟩ => show win0_0.index t (1 : Fin 3) * 512 + 1 * (y 1).val = (i 1).val; rw [e1, h1]; omega
  | ⟨2, _⟩ => show win0_0.index t (2 : Fin 3) * 64 + 1 * (y 2).val = (i 2).val; rw [e2, h2]; omega

/-- What point t writes back is block t of the row means of the array the region reads: the body's one store covers
    its whole [32, 512] block with the row means of the [32, 512, 64] block it loaded, and both blocks begin at row 32 t. -/
theorem flushed_eq (c : Dev nD) (t : Fin cfg0.N) :
    (dats m 0 c).flushed 1 t = ((cfg0.win 1).blk t).view.read (Elt Ideal) (rowMean (V m c main_v0)) := by
  show (cfg0.win 1).cut (grid0.coords t) ((dats m 0 c).after 1 t) = _
  rw [after0_1]
  unfold out0_1
  rw [View.canon_unit_zero hz2]
  simp only [View.ld_unit_zero (S := S32x512x64) hz3]
  obtain ⟨-, -, -, e3, e4⟩ := idx_facts t
  funext j
  refine block_rowMean (V m c main_v0) (iblk m c 0 t) t.val (iblk_apply m c t)
    ((win0 1).xinj (grid0.coords t) j) (((cfg0.win 1).blk t).view.emb j) ?_ ?_
  · show win0_1.index t (0 : Fin 2) * 32 + 1 * (j 0).val = t.val * 32 + (j 0).val
    rw [e3]; omega
  · show win0_1.index t (1 : Fin 2) * 512 + 1 * (j 1).val = (j 1).val
    rw [e4]; omega

/-- An index of the [2048, 512] array lies in point t's block iff each coordinate is in the block's range on its axis. -/
theorem mem_blk (t : Fin cfg0.N) (i : S2048x512.Idx) :
    i ∈ ((cfg0.win 1).blk t).view.set ↔ ∀ a : Fin 2, win0_1.index t a * S32x512.size a ≤ (i a).val
      ∧ (i a).val < win0_1.index t a * S32x512.size a + S32x512.size a := by
  show i ∈ ((View.whole main_v1).slice (win0_1.rect t)).set ↔ _
  rw [View.set_slice_whole, Rect.mem_set_unit]
  exact Iff.rfl

/-- Row r of the [2048, 512] array lies in the block of point r / 32, and every point writes its block back. -/
theorem cover (i : S2048x512.Idx) :
    ∃ t : Fin cfg0.N, (cfg0.win 1).flush t = true ∧ i ∈ ((cfg0.win 1).blk t).view.set := by
  have hi0 : (i 0).val < 2048 := (i 0).isLt
  have hi1 : (i 1).val < 512 := (i 1).isLt
  have hN : grid0.N = 64 := N_0
  refine ⟨⟨(i 0).val / 32, by show (i 0).val / 32 < grid0.N; rw [hN]; omega⟩, flush0_1 _, ?_⟩
  rw [mem_blk]
  obtain ⟨-, -, -, e3, e4⟩ := idx_facts ⟨(i 0).val / 32, by show (i 0).val / 32 < grid0.N; rw [hN]; omega⟩
  intro a
  match a with
  | ⟨0, _⟩ =>
    show win0_1.index _ (0 : Fin 2) * 32 ≤ (i 0).val ∧ (i 0).val < win0_1.index _ (0 : Fin 2) * 32 + 32
    rw [e3]; show (i 0).val / 32 * 32 ≤ (i 0).val ∧ (i 0).val < (i 0).val / 32 * 32 + 32; omega
  | ⟨1, _⟩ =>
    show win0_1.index _ (1 : Fin 2) * 512 ≤ (i 1).val ∧ (i 1).val < win0_1.index _ (1 : Fin 2) * 512 + 512
    rw [e4]; omega

/-- After the 64 points the [2048, 512] array holds the row means of the array the region read: every point's block
    is a block of that one function, and the blocks cover the array. -/
theorem final (c : Dev nD) : (dats m 0 c).arrAt 1 cfg0.N = rowMean (V m c main_v0) :=
  (dats m 0 c).arrAt_eq_of_cover 1 (rowMean (V m c main_v0)) (fun t _ => flushed_eq m c t) cover

/-! ## The lines around the region, and the whole program -/

/-- The line after the region: the result is the [2048, 512] array of row means, split to [8, 256, 512]. -/
theorem tail_eq (c : Dev nD) :
    (Pipeline.afterTail₀ cfgs (dats m) 0 (V0 m) [hostOps1] c main_v2 : S8x256x512.Idx → EReal)
      = shapeCast S8x256x512 (rowMean (V m c main_v0)) shapeCasts_S2048x512_S8x256x512 := by
  unfold Pipeline.afterTail₀
  show StableHlo.after hostOps1 _ (Proc.devRef .tc main_v2) = _
  after_results
  rw [(Pipeline.withArrays_arr spec0 launch0.win.arr_inj c _ _ 1).trans (final m c)]
  rfl

/-- The line before the region: the array the region reads is the argument with its two leading axes merged. -/
theorem head_eq (c : Dev nD) :
    (V m c main_v0 : S2048x512x64.Idx → EReal)
      = shapeCast S2048x512x64 (m ((c.tc : Thread nD τ).loc main_arg0) : S8x256x512x64.Idx → EReal)
          shapeCasts_S8x256x512x64_S2048x512x64 := by
  dsimp only [Gen.V, Gen.V0]
  simp only [Gen.hostOps0, List.flatten_cons, List.flatten_nil, List.append_nil]
  after_results
  rfl

/-- The result buffer after the whole program is the mean of the argument over its last axis: entry (b, c, g) is row
    mean (b * 256 + c, g) of the merged array, whose row (b * 256 + c, g, ·) is the argument's row (b, c, g, ·). -/
theorem value_eq (c : Dev nD) :
    Pipeline.afterTail₀ cfgs (dats m) 0 (V0 m) [hostOps1] c main_v2 = meanK (m ((c.tc : Thread nD τ).loc main_arg0)) := by
  refine (tail_eq m c).trans ?_
  funext j
  obtain ⟨b, cc, g, rfl⟩ : ∃ (b : Fin 8) (cc : Fin 256) (g : Fin 512), j = ix3 b cc g := ⟨j 0, j 1, j 2, eq_ix3 j⟩
  rw [splitRows_apply]
  unfold rowMean meanK
  refine congrArg (fun z => Ideal.div z c64) (Finset.sum_congr rfl fun k _ => ?_)
  refine (congrFun (head_eq m c) _).trans ?_
  exact mergeRows_apply _ b cc g k

end Blocks

/-- The kernel's program, run from any memory: the result buffer ends at the mean of the argument over its last axis,
    and the argument ends as it began (no line of the program writes it). -/
theorem run_mean (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v2) = meanK (m ((c.tc : Thread nD τ).loc main_arg0))
      ∧ r.2.mem ((c.tc : Thread nD τ).loc main_arg0) = m ((c.tc : Thread nD τ).loc main_arg0)) :=
  (θ_run defs _ _).mono (fun _ h c =>
      ⟨((h c).2 main_v2 (Pipeline.mem_restRefs_of main_v2 (by decide) (by decide))).trans (value_eq m c),
        ((h c).2 main_arg0 (Pipeline.mem_restRefs_of main_arg0 (by decide) (by decide))).trans (W_main_arg0 m (dats m) c)⟩)
    (run_main m ρ)

end Cert.KernelIdeal.MeanValue

end
-- ==== Proof.RefTerm.lean ====
/-
  The reference's result as one term of its argument, in named stages.

  The reference normalises by a standard deviation and a p-norm before it pools: from the input x over [8, 256, 512, 64]
  it forms, along the last axis, the unbiased variance (the squared deviations from the mean, summed and divided by
  64 - 1), its square root, the exponent p = 2 + log(1 + the mean of all those roots), the p-norm
  (the sum of |x|^p, to the power 1/p), the ratio of that norm to itself plus a small constant, and its exponential e.
  The result is the mean over the last axis of x · e divided by the mean over the last axis of e spread along it.
  Each stage below is one of these arrays as a function of x, written with the operations the program uses, for any
  reading of the floats.
-/
import proofs.«414761_j41188736369107_3_alg».proof.ReferenceIdeal
import proofs.«414761_j41188736369107_3_alg».proof.Proof.Gen.ReferenceIdeal

noncomputable section

namespace Cert.ReferenceIdeal.Term

open Idealize.ShloMosaic Cert.ReferenceIdeal Cert.ReferenceIdeal.Gen

variable {F : FTy → Type} [FloatOps F]

/-- The sum over the last axis (from zero). -/
def sumK (x : FVec F S8x256x512x64 .f32) : FVec F S8x256x512 .f32 :=
  Host.reduceAdd x (constant S_ .f32 0x00000000#32) reducesTo_S8x256x512x64_S8x256x512_d3 h_S_

/-- A [8, 256, 512] array with a last axis of length one added. -/
def keep (v : FVec F S8x256x512 .f32) : FVec F S8x256x512x1 .f32 :=
  broadcastInDim S8x256x512x1 ![0, 1, 2] bcast_S8x256x512_S8x256x512x1_0_1_2 v

/-- A scalar spread over [8, 256, 512, 1]. -/
def splat1 (v : FVec F S_ .f32) : FVec F S8x256x512x1 .f32 :=
  broadcastInDim S8x256x512x1 ![] bcast_S_S8x256x512x1 v

/-- A [8, 256, 512, 1] array spread along the last axis to length 64. -/
def wide (v : FVec F S8x256x512x1 .f32) : FVec F S8x256x512x64 .f32 :=
  broadcastInDim S8x256x512x64 ![0, 1, 2, 3] bcast_S8x256x512x1_S8x256x512x64_0_1_2_3 v

/-- The mean over the last axis, kept as a column. -/
def meanCol (x : FVec F S8x256x512x64 .f32) : FVec F S8x256x512x1 .f32 :=
  Host.divf (keep (sumK x)) (splat1 (constant S_ .f32 0x42800000#32))

/-- The squared deviation from that mean. -/
def sqDev (x : FVec F S8x256x512x64 .f32) : FVec F S8x256x512x64 .f32 :=
  mulf (subf x (wide (meanCol x))) (subf x (wide (meanCol x)))

/-- The divisor of the unbiased variance: 64 minus the one degree of freedom. -/
def dof : FVec F S_ .f32 :=
  subf (constant S_ .f32 0x42800000#32) (sitofp .f32 (constantI S_ 32 1#32))

/-- The sum of squared deviations over that divisor. -/
def varRaw (x : FVec F S8x256x512x64 .f32) : FVec F S8x256x512x1 .f32 :=
  Host.divf (keep (sumK (sqDev x))) (splat1 dof)

/-- The variance: the quotient where the divisor is positive, a not-a-number pattern otherwise. -/
def variance (x : FVec F S8x256x512x64 .f32) : FVec F S8x256x512x1 .f32 :=
  select (broadcastInDim S8x256x512x1 ![] bcast_S_S8x256x512x1 (cmpf .ogt (dof (F := F)) (constant (F := F) S_ .f32 0x00000000#32)))
    (varRaw x) (splat1 (id (constant S_ .f32 0x7FC00000#32)))

/-- The standard deviation. -/
def stdDev (x : FVec F S8x256x512x64 .f32) : FVec F S8x256x512x1 .f32 := Host.sqrt (variance x)

/-- The exponent p: two plus log(1 + the mean of every standard deviation). -/
def pExp (x : FVec F S8x256x512x64 .f32) : FVec F S_ .f32 :=
  addf (constant S_ .f32 0x40000000#32)
    (Host.log1p (Host.divf (Host.reduceAdd (stdDev x) (constant S_ .f32 0x00000000#32) reducesTo_S8x256x512x1_S_d0_1_2_3 h_S_)
      (constant S_ .f32 0x49800000#32)))

/-- |x| to the power p. -/
def powAbs (x : FVec F S8x256x512x64 .f32) : FVec F S8x256x512x64 .f32 :=
  Host.powf (Host.absf x) (broadcastInDim S8x256x512x64 ![] bcast_S_S8x256x512x64 (pExp x))

/-- The p-norm along the last axis, as a column. -/
def normCol (x : FVec F S8x256x512x64 .f32) : FVec F S8x256x512x1 .f32 :=
  Host.powf (keep (sumK (powAbs x))) (splat1 (Host.divf (constant S_ .f32 0x3F800000#32) (pExp x)))

/-- The norm over (its own sum along the unit axis, plus the small constant). -/
def ratioCol (x : FVec F S8x256x512x64 .f32) : FVec F S8x256x512x1 .f32 :=
  Host.divf (normCol x)
    (addf (keep (Host.reduceAdd (normCol x) (constant S_ .f32 0x00000000#32) reducesTo_S8x256x512x1_S8x256x512_d3 h_S_))
      (splat1 (constant S_ .f32 0x322BCC77#32)))

/-- Its exponential: the weight, one per (b, c, g). -/
def weightCol (x : FVec F S8x256x512x64 .f32) : FVec F S8x256x512x1 .f32 := Host.exp (ratioCol x)

/-- Sixty-four spread over [8, 256, 512]. -/
def c64 : FVec F S8x256x512 .f32 :=
  broadcastInDim S8x256x512 ![] bcast_S_S8x256x512 (constant S_ .f32 0x42800000#32)

/-- The mean over the last axis of x times the weight. -/
def up (x : FVec F S8x256x512x64 .f32) : FVec F S8x256x512 .f32 :=
  Host.divf (sumK (mulf x (wide (weightCol x)))) c64

/-- The mean over the last axis of the weight spread along it. -/
def down (x : FVec F S8x256x512x64 .f32) : FVec F S8x256x512 .f32 :=
  Host.divf (sumK (wide (weightCol x))) c64

/-- The reference's result. -/
def refOut (x : FVec F S8x256x512x64 .f32) : FVec F S8x256x512 .f32 := Host.divf (up x) (down x)

end Cert.ReferenceIdeal.Term

end
-- ==== Proof.RefRun.lean ====
/-
  The reference's program as one straight line of host operations, and its run.

  The program calls a function for the standard deviation, which calls one for the variance, which calls one for a
  select. A call runs the callee's lines on the call's own buffers, so the whole program is one line of sixty-four
  operations: the integer one; the variance function's twenty (the mean over the last axis, the squared deviations,
  their sum over 64 − 1, the test that this divisor is positive, a not-a-number pattern); the select's three; the square
  root; and the thirty-nine of the main function (the exponent p from the mean of all standard deviations, the
  p-norm, its ratio to itself plus a small constant, the exponential, the two means and their quotient).
  Run from any memory, every execution ends with each buffer at the fold of those operations over what the memory
  held; read at the result's buffer, that fold is the staged term `Term.refOut` of the argument array.
-/
import proofs.«414761_j41188736369107_3_alg».proof.ReferenceIdeal
import proofs.«414761_j41188736369107_3_alg».proof.Proof.Gen.ReferenceIdeal
import proofs.«414761_j41188736369107_3_alg».proof.Proof.RefTerm
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The program's operations in order, each call replaced by the callee's lines over that call's buffers. -/
abbrev ops : List (HloOp τ sig (Elt F)) :=
  [
    nullary main_c (constantI S_ 32 1#32),
    TRef.nullary main_call0.call0.cst (constant S_ .f32 0x00000000#32),
    TRef.binary (.of main_arg0 : TRef sig ⟨S8x256x512x64, .f32⟩) main_call0.call0.cst main_call0.call0.v0 (fun x v => Host.reduceAdd x v reducesTo_S8x256x512x64_S8x256x512_d3 h_S_),
    TRef.unary main_call0.call0.v0 main_call0.call0.v1 (broadcastInDim S8x256x512x1 ![0, 1, 2] bcast_S8x256x512_S8x256x512x1_0_1_2),
    TRef.nullary main_call0.call0.cst_0 (constant S_ .f32 0x42800000#32),
    TRef.unary main_call0.call0.cst_0 main_call0.call0.v2 (broadcastInDim S8x256x512x1 ![] bcast_S_S8x256x512x1),
    TRef.binary main_call0.call0.v1 main_call0.call0.v2 main_call0.call0.v3 Host.divf,
    TRef.unary main_call0.call0.v3 main_call0.call0.v4 (broadcastInDim S8x256x512x64 ![0, 1, 2, 3] bcast_S8x256x512x1_S8x256x512x64_0_1_2_3),
    TRef.binary (.of main_arg0 : TRef sig ⟨S8x256x512x64, .f32⟩) main_call0.call0.v4 main_call0.call0.v5 subf,
    TRef.binary main_call0.call0.v5 main_call0.call0.v5 main_call0.call0.v6 mulf,
    TRef.unary (.of main_c : TRef sig ⟨S_, .i32⟩) main_call0.call0.v7 (sitofp .f32),
    TRef.nullary main_call0.call0.cst_1 (constant S_ .f32 0x42800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S8x256x512x64_S8x256x512_d3 h_S_),
    TRef.unary main_call0.call0.v9 main_call0.call0.v10 (broadcastInDim S8x256x512x1 ![0, 1, 2] bcast_S8x256x512_S8x256x512x1_0_1_2),
    TRef.unary main_call0.call0.v8 main_call0.call0.v11 (broadcastInDim S8x256x512x1 ![] bcast_S_S8x256x512x1),
    TRef.binary main_call0.call0.v10 main_call0.call0.v11 main_call0.call0.v12 Host.divf,
    TRef.nullary main_call0.call0.cst_3 (constant S_ .f32 0x00000000#32),
    TRef.binary main_call0.call0.v8 main_call0.call0.cst_3 main_call0.call0.v13 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S8x256x512x1 ![] bcast_S_S8x256x512x1),
    TRef.ternary main_call0.call0.v13 main_call0.call0.v12 main_call0.call0.call0.v1 main_call0.call0.call0.v2 (fun p a b => select (broadcastInDim S8x256x512x1 ![] bcast_S_S8x256x512x1 p) a b),
    TRef.unary main_call0.call0.call0.v2 main_call0.v1 Host.sqrt,
    nullary main_cst (constant S_ .f32 0x00000000#32),
    binary main_v0 main_cst main_v1 ((fun x v => Host.reduceAdd x v reducesTo_S8x256x512x1_S_d0_1_2_3 h_S_) : (⟨S8x256x512x1, .f32⟩ : BufTy).Contents (Elt F) → (⟨S_, .f32⟩ : BufTy).Contents (Elt F) → (⟨S_, .f32⟩ : BufTy).Contents (Elt F)),
    nullary main_cst_0 (constant S_ .f32 0x49800000#32),
    binary main_v1 main_cst_0 main_v2 (Host.divf : (⟨S_, .f32⟩ : BufTy).Contents (Elt F) → (⟨S_, .f32⟩ : BufTy).Contents (Elt F) → (⟨S_, .f32⟩ : BufTy).Contents (Elt F)),
    unary main_v2 main_v3 (Host.log1p : (⟨S_, .f32⟩ : BufTy).Contents (Elt F) → (⟨S_, .f32⟩ : BufTy).Contents (Elt F)),
    nullary main_cst_1 (constant S_ .f32 0x40000000#32),
    binary main_cst_1 main_v3 main_v4 (addf : (⟨S_, .f32⟩ : BufTy).Contents (Elt F) → (⟨S_, .f32⟩ : BufTy).Contents (Elt F) → (⟨S_, .f32⟩ : BufTy).Contents (Elt F)),
    unary main_arg0 main_v5 (Host.absf : (⟨S8x256x512x64, .f32⟩ : BufTy).Contents (Elt F) → (⟨S8x256x512x64, .f32⟩ : BufTy).Contents (Elt F)),
    unary main_v4 main_v6 (broadcastInDim S8x256x512x64 ![] bcast_S_S8x256x512x64 : (⟨S_, .f32⟩ : BufTy).Contents (Elt F) → (⟨S8x256x512x64, .f32⟩ : BufTy).Contents (Elt F)),
    binary main_v5 main_v6 main_v7 (Host.powf : (⟨S8x256x512x64, .f32⟩ : BufTy).Contents (Elt F) → (⟨S8x256x512x64, .f32⟩ : BufTy).Contents (Elt F) → (⟨S8x256x512x64, .f32⟩ : BufTy).Contents (Elt F)),
    nullary main_cst_2 (constant S_ .f32 0x00000000#32),
    binary main_v7 main_cst_2 main_v8 ((fun x v => Host.reduceAdd x v reducesTo_S8x256x512x64_S8x256x512_d3 h_S_) : (⟨S8x256x512x64, .f32⟩ : BufTy).Contents (Elt F) → (⟨S_, .f32⟩ : BufTy).Contents (Elt F) → (⟨S8x256x512, .f32⟩ : BufTy).Contents (Elt F)),
    unary main_v8 main_v9 (broadcastInDim S8x256x512x1 ![0, 1, 2] bcast_S8x256x512_S8x256x512x1_0_1_2 : (⟨S8x256x512, .f32⟩ : BufTy).Contents (Elt F) → (⟨S8x256x512x1, .f32⟩ : BufTy).Contents (Elt F)),
    nullary main_cst_3 (constant S_ .f32 0x3F800000#32),
    binary main_cst_3 main_v4 main_v10 (Host.divf : (⟨S_, .f32⟩ : BufTy).Contents (Elt F) → (⟨S_, .f32⟩ : BufTy).Contents (Elt F) → (⟨S_, .f32⟩ : BufTy).Contents (Elt F)),
    unary main_v10 main_v11 (broadcastInDim S8x256x512x1 ![] bcast_S_S8x256x512x1 : (⟨S_, .f32⟩ : BufTy).Contents (Elt F) → (⟨S8x256x512x1, .f32⟩ : BufTy).Contents (Elt F)),
    binary main_v9 main_v11 main_v12 (Host.powf : (⟨S8x256x512x1, .f32⟩ : BufTy).Contents (Elt F) → (⟨S8x256x512x1, .f32⟩ : BufTy).Contents (Elt F) → (⟨S8x256x512x1, .f32⟩ : BufTy).Contents (Elt F)),
    nullary main_cst_4 (constant S_ .f32 0x00000000#32),
    binary main_v12 main_cst_4 main_v13 ((fun x v => Host.reduceAdd x v reducesTo_S8x256x512x1_S8x256x512_d3 h_S_) : (⟨S8x256x512x1, .f32⟩ : BufTy).Contents (Elt F) → (⟨S_, .f32⟩ : BufTy).Contents (Elt F) → (⟨S8x256x512, .f32⟩ : BufTy).Contents (Elt F)),
    unary main_v13 main_v14 (broadcastInDim S8x256x512x1 ![0, 1, 2] bcast_S8x256x512_S8x256x512x1_0_1_2 : (⟨S8x256x512, .f32⟩ : BufTy).Contents (Elt F) → (⟨S8x256x512x1, .f32⟩ : BufTy).Contents (Elt F)),
    nullary main_cst_5 (constant S_ .f32 0x322BCC77#32),
    unary main_cst_5 main_v15 (broadcastInDim S8x256x512x1 ![] bcast_S_S8x256x512x1 : (⟨S_, .f32⟩ : BufTy).Contents (Elt F) → (⟨S8x256x512x1, .f32⟩ : BufTy).Contents (Elt F)),
    binary main_v14 main_v15 main_v16 (addf : (⟨S8x256x512x1, .f32⟩ : BufTy).Contents (Elt F) → (⟨S8x256x512x1, .f32⟩ : BufTy).Contents (Elt F) → (⟨S8x256x512x1, .f32⟩ : BufTy).Contents (Elt F)),
    binary main_v12 main_v16 main_v17 (Host.divf : (⟨S8x256x512x1, .f32⟩ : BufTy).Contents (Elt F) → (⟨S8x256x512x1, .f32⟩ : BufTy).Contents (Elt F) → (⟨S8x256x512x1, .f32⟩ : BufTy).Contents (Elt F)),
    unary main_v17 main_v18 (Host.exp : (⟨S8x256x512x1, .f32⟩ : BufTy).Contents (Elt F) → (⟨S8x256x512x1, .f32⟩ : BufTy).Contents (Elt F)),
    unary main_v18 main_v19 (broadcastInDim S8x256x512x64 ![0, 1, 2, 3] bcast_S8x256x512x1_S8x256x512x64_0_1_2_3 : (⟨S8x256x512x1, .f32⟩ : BufTy).Contents (Elt F) → (⟨S8x256x512x64, .f32⟩ : BufTy).Contents (Elt F)),
    binary main_arg0 main_v19 main_v20 (mulf : (⟨S8x256x512x64, .f32⟩ : BufTy).Contents (Elt F) → (⟨S8x256x512x64, .f32⟩ : BufTy).Contents (Elt F) → (⟨S8x256x512x64, .f32⟩ : BufTy).Contents (Elt F)),
    nullary main_cst_6 (constant S_ .f32 0x00000000#32),
    binary main_v20 main_cst_6 main_v21 ((fun x v => Host.reduceAdd x v reducesTo_S8x256x512x64_S8x256x512_d3 h_S_) : (⟨S8x256x512x64, .f32⟩ : BufTy).Contents (Elt F) → (⟨S_, .f32⟩ : BufTy).Contents (Elt F) → (⟨S8x256x512, .f32⟩ : BufTy).Contents (Elt F)),
    nullary main_cst_7 (constant S_ .f32 0x42800000#32),
    unary main_cst_7 main_v22 (broadcastInDim S8x256x512 ![] bcast_S_S8x256x512 : (⟨S_, .f32⟩ : BufTy).Contents (Elt F) → (⟨S8x256x512, .f32⟩ : BufTy).Contents (Elt F)),
    binary main_v21 main_v22 main_v23 (Host.divf : (⟨S8x256x512, .f32⟩ : BufTy).Contents (Elt F) → (⟨S8x256x512, .f32⟩ : BufTy).Contents (Elt F) → (⟨S8x256x512, .f32⟩ : BufTy).Contents (Elt F)),
    unary main_v18 main_v24 (broadcastInDim S8x256x512x64 ![0, 1, 2, 3] bcast_S8x256x512x1_S8x256x512x64_0_1_2_3 : (⟨S8x256x512x1, .f32⟩ : BufTy).Contents (Elt F) → (⟨S8x256x512x64, .f32⟩ : BufTy).Contents (Elt F)),
    nullary main_cst_8 (constant S_ .f32 0x00000000#32),
    binary main_v24 main_cst_8 main_v25 ((fun x v => Host.reduceAdd x v reducesTo_S8x256x512x64_S8x256x512_d3 h_S_) : (⟨S8x256x512x64, .f32⟩ : BufTy).Contents (Elt F) → (⟨S_, .f32⟩ : BufTy).Contents (Elt F) → (⟨S8x256x512, .f32⟩ : BufTy).Contents (Elt F)),
    nullary main_cst_9 (constant S_ .f32 0x42800000#32),
    unary main_cst_9 main_v26 (broadcastInDim S8x256x512 ![] bcast_S_S8x256x512 : (⟨S_, .f32⟩ : BufTy).Contents (Elt F) → (⟨S8x256x512, .f32⟩ : BufTy).Contents (Elt F)),
    binary main_v25 main_v26 main_v27 (Host.divf : (⟨S8x256x512, .f32⟩ : BufTy).Contents (Elt F) → (⟨S8x256x512, .f32⟩ : BufTy).Contents (Elt F) → (⟨S8x256x512, .f32⟩ : BufTy).Contents (Elt F)),
    binary main_v23 main_v27 main_v28 (Host.divf : (⟨S8x256x512, .f32⟩ : BufTy).Contents (Elt F) → (⟨S8x256x512, .f32⟩ : BufTy).Contents (Elt F) → (⟨S8x256x512, .f32⟩ : BufTy).Contents (Elt F)) ]

set_option maxRecDepth 4096 in
/-- The main function is that line: the three functions' bodies opened at their calls, the sequencing re-associated. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the device only. -/
theorem ops_sub : (ops : List (HloOp τ sig (Elt F))).Forall fun op => op.bufs ⊆ tcRefs τ sig :=
  ⟨
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., nullary_bufs_sub .., binary_bufs_sub .., nullary_bufs_sub .., binary_bufs_sub .., unary_bufs_sub ..,
    nullary_bufs_sub .., binary_bufs_sub .., unary_bufs_sub .., unary_bufs_sub .., binary_bufs_sub .., nullary_bufs_sub ..,
    binary_bufs_sub .., unary_bufs_sub .., nullary_bufs_sub .., binary_bufs_sub .., unary_bufs_sub .., binary_bufs_sub ..,
    nullary_bufs_sub .., binary_bufs_sub .., unary_bufs_sub .., nullary_bufs_sub .., unary_bufs_sub .., binary_bufs_sub ..,
    binary_bufs_sub .., unary_bufs_sub .., unary_bufs_sub .., binary_bufs_sub .., nullary_bufs_sub .., binary_bufs_sub ..,
    nullary_bufs_sub .., unary_bufs_sub .., binary_bufs_sub .., unary_bufs_sub .., nullary_bufs_sub .., binary_bufs_sub ..,
    nullary_bufs_sub .., unary_bufs_sub .., binary_bufs_sub .., binary_bufs_sub ..⟩

/-- From any memory with zero counters every weakly fair execution of the program ends, with each buffer at the fold
    of the line over what the memory held. -/
theorem run_line (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd in
set_option maxRecDepth 8192 in
/-- The fold read at the result's buffer is the staged term of the argument array: each operation's result read back
    at the buffer it writes, the typed references' transports the identity at these literal buffers. -/
theorem result_eq (V : Valuation τ sig (Elt F)) :
    after ops V (main_v28 : DevRef τ sig) = Term.refOut (V (main_arg0 : DevRef τ sig)) := by
  simp only [after_cons, after_nil]
  rfl

/-- No operation writes the argument's buffer. -/
theorem arg_eq (V : Valuation τ sig (Elt F)) :
    after ops V (main_arg0 : DevRef τ sig) = V (main_arg0 : DevRef τ sig) := by
  simp only [after_cons, after_nil]
  rfl

/-- The run with the result named: the staged term of the argument array as launched; the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28) = Term.refOut (m ((c.tc : Thread nD τ).loc main_arg0))
      ∧ r.2.mem ((c.tc : Thread nD τ).loc main_arg0) = m ((c.tc : Thread nD τ).loc main_arg0) :=
  (θ_run defs _ _).mono (fun _ h c => ⟨(h c main_v28).trans (result_eq _), (h c main_arg0).trans (arg_eq _)⟩) (run_line m ρ)

end Cert.ReferenceIdeal.Line

end
-- ==== Proof.LibRealV.lean ====
/-
  Arrays of extended reals whose entries are all real numbers, all non-negative real numbers, or all positive
  real numbers, and the array operations (read exactly, at the extended reals) that keep an array inside one of
  these three classes: sums, differences, products, quotients by a nonzero real, square roots, exponentials,
  log (1 + ·), absolute values, real powers, broadcasts, selects and sums along axes. Each fact is first stated of
  one extended real and then carried to arrays entry by entry.
-/
import Idealize.ShloMosaic.PureOps.Ideal
import Idealize.ShloMosaic.PureOps.Ideal.Laws
import Idealize.ShloMosaic.Lib.ValueIdx
import proofs.«414761_j41188736369107_3_alg».proof.Proof.Spec

noncomputable section

open scoped BigOperators

namespace Cert.LibRealV

open Idealize.ShloMosaic Idealize.ShloMosaic.ValueIdx Cert.MeanSpec

/-! ## One extended real -/

/-- The extended real is a real number. -/
def IsReal (a : EReal) : Prop := ∃ r : ℝ, a = (r : EReal)
/-- The extended real is a non-negative real number. -/
def IsNonneg (a : EReal) : Prop := ∃ r : ℝ, 0 ≤ r ∧ a = (r : EReal)
/-- The extended real is a positive real number. -/
def IsPos (a : EReal) : Prop := ∃ r : ℝ, 0 < r ∧ a = (r : EReal)

/-- A non-negative real is a real. -/
theorem IsNonneg.real {a : EReal} (h : IsNonneg a) : IsReal a := let ⟨r, _, hr⟩ := h; ⟨r, hr⟩
/-- A positive real is non-negative. -/
theorem IsPos.nonneg {a : EReal} (h : IsPos a) : IsNonneg a := let ⟨r, h0, hr⟩ := h; ⟨r, h0.le, hr⟩
/-- A positive real is a real. -/
theorem IsPos.real {a : EReal} (h : IsPos a) : IsReal a := h.nonneg.real

/-- A coerced real is a real. -/
theorem isReal_coe (r : ℝ) : IsReal (r : EReal) := ⟨r, rfl⟩
/-- Zero is a non-negative real. -/
theorem isNonneg_zero : IsNonneg 0 := ⟨0, le_rfl, rfl⟩

/-- The sum of two reals is real: the coercion is additive. -/
theorem IsReal.add {a b : EReal} (ha : IsReal a) (hb : IsReal b) : IsReal (a + b) := by
  obtain ⟨r, rfl⟩ := ha; obtain ⟨s, rfl⟩ := hb
  exact ⟨r + s, (EReal.coe_add r s).symm⟩
/-- The difference of two reals is real. -/
theorem IsReal.sub {a b : EReal} (ha : IsReal a) (hb : IsReal b) : IsReal (a - b) := by
  obtain ⟨r, rfl⟩ := ha; obtain ⟨s, rfl⟩ := hb
  exact ⟨r - s, (EReal.coe_sub r s).symm⟩
/-- The product of two reals is real: the coercion is multiplicative. -/
theorem IsReal.mul {a b : EReal} (ha : IsReal a) (hb : IsReal b) : IsReal (a * b) := by
  obtain ⟨r, rfl⟩ := ha; obtain ⟨s, rfl⟩ := hb
  exact ⟨r * s, (EReal.coe_mul r s).symm⟩
/-- The square of a real is a non-negative real. -/
theorem IsReal.mul_self {a : EReal} (ha : IsReal a) : IsNonneg (a * a) := by
  obtain ⟨r, rfl⟩ := ha
  exact ⟨r * r, mul_self_nonneg r, (EReal.coe_mul r r).symm⟩
/-- The sum of two non-negative reals is one. -/
theorem IsNonneg.add {a b : EReal} (ha : IsNonneg a) (hb : IsNonneg b) : IsNonneg (a + b) := by
  obtain ⟨r, hr, rfl⟩ := ha; obtain ⟨s, hs, rfl⟩ := hb
  exact ⟨r + s, add_nonneg hr hs, (EReal.coe_add r s).symm⟩
/-- The product of two non-negative reals is one. -/
theorem IsNonneg.mul {a b : EReal} (ha : IsNonneg a) (hb : IsNonneg b) : IsNonneg (a * b) := by
  obtain ⟨r, hr, rfl⟩ := ha; obtain ⟨s, hs, rfl⟩ := hb
  exact ⟨r * s, mul_nonneg hr hs, (EReal.coe_mul r s).symm⟩
/-- A non-negative real plus a positive one is positive. -/
theorem IsNonneg.add_pos {a b : EReal} (ha : IsNonneg a) (hb : IsPos b) : IsPos (a + b) := by
  obtain ⟨r, hr, rfl⟩ := ha; obtain ⟨s, hs, rfl⟩ := hb
  exact ⟨r + s, add_pos_of_nonneg_of_pos hr hs, (EReal.coe_add r s).symm⟩
/-- A positive real plus a non-negative one is positive. -/
theorem IsPos.add_nonneg {a b : EReal} (ha : IsPos a) (hb : IsNonneg b) : IsPos (a + b) := by
  obtain ⟨r, hr, rfl⟩ := ha; obtain ⟨s, hs, rfl⟩ := hb
  exact ⟨r + s, add_pos_of_pos_of_nonneg hr hs, (EReal.coe_add r s).symm⟩

/-- The exact quotient of two reals with a nonzero divisor is their real quotient. -/
theorem div_coe_coe (r : ℝ) {s : ℝ} (hs : s ≠ 0) : Ideal.div (r : EReal) (s : EReal) = ((r / s : ℝ) : EReal) := by
  rw [Ideal.div_coe hs, ← EReal.coe_mul, mul_one_div]
/-- A real over a nonzero real is real. -/
theorem IsReal.div {a b : EReal} (ha : IsReal a) (hb : IsReal b) (hb0 : b ≠ 0) : IsReal (Ideal.div a b) := by
  obtain ⟨r, rfl⟩ := ha; obtain ⟨s, rfl⟩ := hb
  have hs : s ≠ 0 := fun h => hb0 (by rw [h, EReal.coe_zero])
  exact ⟨r / s, div_coe_coe r hs⟩
/-- A real over a positive real is real. -/
theorem IsReal.div_pos {a b : EReal} (ha : IsReal a) (hb : IsPos b) : IsReal (Ideal.div a b) := by
  obtain ⟨r, rfl⟩ := ha; obtain ⟨s, hs, rfl⟩ := hb
  exact ⟨r / s, div_coe_coe r hs.ne'⟩
/-- A non-negative real over a positive real is a non-negative real. -/
theorem IsNonneg.div_pos {a b : EReal} (ha : IsNonneg a) (hb : IsPos b) : IsNonneg (Ideal.div a b) := by
  obtain ⟨r, hr, rfl⟩ := ha; obtain ⟨s, hs, rfl⟩ := hb
  exact ⟨r / s, div_nonneg hr hs.le, div_coe_coe r hs.ne'⟩

/-- The square root of a non-negative real is a non-negative real. -/
theorem IsNonneg.sqrt {a : EReal} (ha : IsNonneg a) : IsNonneg (Ideal.sqrt a) := by
  obtain ⟨r, hr, rfl⟩ := ha
  exact ⟨Real.sqrt r, Real.sqrt_nonneg r, by rw [Ideal.sqrt_coe, if_neg (not_lt.mpr hr)]⟩
/-- The exponential of a real is a positive real. -/
theorem IsReal.exp {a : EReal} (ha : IsReal a) : IsPos (Ideal.exp a) := by
  obtain ⟨r, rfl⟩ := ha
  exact ⟨Real.exp r, Real.exp_pos r, Ideal.exp_coe r⟩
/-- log (1 + a) of a non-negative real a is a non-negative real: 1 + a is at least 1. -/
theorem IsNonneg.log1p {a : EReal} (ha : IsNonneg a) : IsNonneg (Ideal.log1p a) := by
  obtain ⟨r, hr, rfl⟩ := ha
  refine ⟨Real.log (1 + r), Real.log_nonneg (by linarith), ?_⟩
  rw [Ideal.log1p, ← EReal.coe_one, ← EReal.coe_add, Ideal.log_coe, if_neg (by linarith)]
/-- The absolute value (the larger of a and −a) of a real is a non-negative real. -/
theorem IsReal.abs {a : EReal} (ha : IsReal a) : IsNonneg (max a (-a)) := by
  obtain ⟨r, rfl⟩ := ha
  refine ⟨max r (-r), le_max_iff.mpr (by rcases le_total 0 r with h | h; exact .inl h; exact .inr (by linarith)), ?_⟩
  rw [← EReal.coe_neg]
  exact (EReal.coe_strictMono.monotone.map_max).symm
/-- A non-negative real to a real power is a non-negative real. -/
theorem IsNonneg.pow {a b : EReal} (ha : IsNonneg a) (hb : IsReal b) : IsNonneg (Ideal.pow a b) := by
  obtain ⟨r, hr, rfl⟩ := ha; obtain ⟨s, rfl⟩ := hb
  exact ⟨Real.rpow r s, Real.rpow_nonneg hr s, Ideal.pow_coe_coe r s⟩

/-- A finite sum of coerced reals is the coerced sum. -/
theorem coe_finset_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of reals is real. -/
theorem isReal_sum {ι : Type*} (s : Finset ι) (v : ι → EReal) (h : ∀ i ∈ s, IsReal (v i)) : IsReal (∑ i ∈ s, v i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))
/-- A finite sum of non-negative reals is a non-negative real. -/
theorem isNonneg_sum {ι : Type*} (s : Finset ι) (v : ι → EReal) (h : ∀ i ∈ s, IsNonneg (v i)) :
    IsNonneg (∑ i ∈ s, v i) := by
  classical
  induction s using Finset.induction_on with
  | empty => exact ⟨0, le_rfl, by simp⟩
  | insert a s ha ih =>
    rw [Finset.sum_insert ha]
    exact (h a (Finset.mem_insert_self a s)).add (ih fun i hi => h i (Finset.mem_insert_of_mem hi))

/-! ## Arrays -/

/-- Every entry of the array is a positive real number. -/
def PosV {s : Shape} (v : s.Idx → EReal) : Prop := ∀ i, IsPos (v i)

/-- An array of positive reals is one of non-negative reals. -/
theorem posV_nonneg {s : Shape} {v : s.Idx → EReal} (h : PosV v) : NonnegV v := fun i => (h i).nonneg
/-- An array of positive reals is one of reals. -/
theorem posV_real {s : Shape} {v : s.Idx → EReal} (h : PosV v) : RealV v := fun i => (h i).real

section Pointwise
variable {s : Shape} {φ : FTy} {a b : FVec Ideal s φ}

/-- Entrywise sum of real arrays. -/
theorem realV_addf (ha : RealV a) (hb : RealV b) : RealV (addf a b) := fun i => IsReal.add (ha i) (hb i)
/-- Entrywise difference of real arrays. -/
theorem realV_subf (ha : RealV a) (hb : RealV b) : RealV (subf a b) := fun i => IsReal.sub (ha i) (hb i)
/-- Entrywise product of real arrays. -/
theorem realV_mulf (ha : RealV a) (hb : RealV b) : RealV (mulf a b) := fun i => IsReal.mul (ha i) (hb i)
/-- Entrywise square of a real array. -/
theorem realV_mulf_self (ha : RealV a) : NonnegV (mulf a a) := fun i => IsReal.mul_self (ha i)
/-- Entrywise sum of non-negative arrays. -/
theorem nonnegV_addf (ha : NonnegV a) (hb : NonnegV b) : NonnegV (addf a b) := fun i => IsNonneg.add (ha i) (hb i)
/-- Entrywise sum of a non-negative and a positive array. -/
theorem nonnegV_addf_pos (ha : NonnegV a) (hb : PosV b) : PosV (addf a b) := fun i => IsNonneg.add_pos (ha i) (hb i)
/-- Entrywise sum of a positive and a non-negative array. -/
theorem posV_addf_nonneg (ha : PosV a) (hb : NonnegV b) : PosV (addf a b) := fun i => IsPos.add_nonneg (ha i) (hb i)
/-- Entrywise quotient of a real array by a positive one. -/
theorem realV_hostDivf (ha : RealV a) (hb : PosV b) : RealV (Host.divf a b) := fun i => IsReal.div_pos (ha i) (hb i)
/-- Entrywise quotient of a non-negative array by a positive one. -/
theorem nonnegV_hostDivf (ha : NonnegV a) (hb : PosV b) : NonnegV (Host.divf a b) := fun i => IsNonneg.div_pos (ha i) (hb i)
/-- Entrywise square root of a non-negative array. -/
theorem nonnegV_hostSqrt (ha : NonnegV a) : NonnegV (Host.sqrt a) := fun i => IsNonneg.sqrt (ha i)
/-- Entrywise exponential of a real array. -/
theorem realV_hostExp (ha : RealV a) : PosV (Host.exp a) := fun i => IsReal.exp (ha i)
/-- Entrywise log (1 + ·) of a non-negative array. -/
theorem nonnegV_hostLog1p (ha : NonnegV a) : NonnegV (Host.log1p a) := fun i => IsNonneg.log1p (ha i)
/-- Entrywise absolute value of a real array. -/
theorem realV_hostAbsf (ha : RealV a) : NonnegV (Host.absf a) := fun i => IsReal.abs (ha i)
/-- Entrywise real power of a non-negative array. -/
theorem nonnegV_hostPowf (ha : NonnegV a) (hb : RealV b) : NonnegV (Host.powf a b) := fun i => IsNonneg.pow (ha i) (hb i)

end Pointwise

/-! ## Broadcasts, constants, selects and sums along axes -/

section Layout
variable {s t : Shape}

/-- A broadcast array reads every entry from some entry of its operand: real operand, real broadcast. -/
theorem realV_broadcastInDim {dims : Fin s.rank → Fin t.rank} (h : s.BroadcastsInDim t dims) {v : s.Idx → EReal}
    (hv : RealV v) : RealV (broadcastInDim t dims h v) := fun _ => hv _
/-- Non-negative operand, non-negative broadcast. -/
theorem nonnegV_broadcastInDim {dims : Fin s.rank → Fin t.rank} (h : s.BroadcastsInDim t dims) {v : s.Idx → EReal}
    (hv : NonnegV v) : NonnegV (broadcastInDim t dims h v) := fun _ => hv _
/-- Positive operand, positive broadcast. -/
theorem posV_broadcastInDim {dims : Fin s.rank → Fin t.rank} (h : s.BroadcastsInDim t dims) {v : s.Idx → EReal}
    (hv : PosV v) : PosV (broadcastInDim t dims h v) := fun _ => hv _

/-- A constant array whose pattern denotes a real number. -/
theorem realV_constant {φ : FTy} {b : BitVec φ.bits} {r : ℝ} (hb : Ideal.ofBits φ b = (r : EReal)) :
    RealV (constant (F := Ideal) s φ b) := fun _ => ⟨r, hb⟩
/-- A constant array whose pattern denotes a non-negative real number. -/
theorem nonnegV_constant {φ : FTy} {b : BitVec φ.bits} {r : ℝ} (h0 : 0 ≤ r) (hb : Ideal.ofBits φ b = (r : EReal)) :
    NonnegV (constant (F := Ideal) s φ b) := fun _ => ⟨r, h0, hb⟩
/-- A constant array whose pattern denotes a positive real number. -/
theorem posV_constant {φ : FTy} {b : BitVec φ.bits} {r : ℝ} (h0 : 0 < r) (hb : Ideal.ofBits φ b = (r : EReal)) :
    PosV (constant (F := Ideal) s φ b) := fun _ => ⟨r, h0, hb⟩

/-- A select whose condition is the bit 1 everywhere is its first operand. -/
theorem select_of_all_one {α : Type} (c : IVec s 1) (a b : s.Idx → α) (hc : ∀ i, c i = 1#1) : select c a b = a :=
  funext fun i => by rw [select_apply, hc i, select_one]

/-- The exact sum along any axes, from an initial value: at each index the initial value plus a finite sum of operand
    entries. Real operand and real initial value, real result. -/
theorem realV_hostReduceAdd {φ : FTy} {u : Shape} {axes : List (Fin s.rank)} (x : FVec Ideal s φ) (init : FVec Ideal u φ)
    (h : s.ReducesTo axes t) (hu : 0 < u.numel) (hx : RealV x) (hi : RealV init) :
    RealV (Host.reduceAdd (F := Ideal) x init h hu) :=
  fun _ => IsReal.add (hi _) (isReal_sum _ _ fun i _ => hx i)
/-- Non-negative operand and initial value, non-negative result. -/
theorem nonnegV_hostReduceAdd {φ : FTy} {u : Shape} {axes : List (Fin s.rank)} (x : FVec Ideal s φ) (init : FVec Ideal u φ)
    (h : s.ReducesTo axes t) (hu : 0 < u.numel) (hx : NonnegV x) (hi : NonnegV init) :
    NonnegV (Host.reduceAdd (F := Ideal) x init h hu) :=
  fun _ => IsNonneg.add (hi _) (isNonneg_sum _ _ fun i _ => hx i)

end Layout

/-! ## The values of a few single-precision patterns -/

/-- The pattern of 64.0. -/
theorem ofBits_64 : Ideal.ofBits .f32 0x42800000#32 = ((64 : ℝ) : EReal) := by
  simp [Ideal.ofBits, Ideal.ieee, -EReal.coe_mul]; norm_num
/-- The pattern of 2.0. -/
theorem ofBits_2 : Ideal.ofBits .f32 0x40000000#32 = ((2 : ℝ) : EReal) := by
  simp [Ideal.ofBits, Ideal.ieee, -EReal.coe_mul]; norm_num
/-- The pattern of 1.0. -/
theorem ofBits_1 : Ideal.ofBits .f32 0x3F800000#32 = ((1 : ℝ) : EReal) := by
  simp [Ideal.ofBits, Ideal.ieee, -EReal.coe_mul]; norm_num
/-- The pattern of 2^20. -/
theorem ofBits_2pow20 : Ideal.ofBits .f32 0x49800000#32 = ((1048576 : ℝ) : EReal) := by
  simp [Ideal.ofBits, Ideal.ieee, -EReal.coe_mul]; norm_num
/-- The pattern 0x322BCC77 (about 1e-8) denotes a positive real: a normal number with sign bit clear. -/
theorem ofBits_tiny : IsPos (Ideal.ofBits .f32 0x322BCC77#32) := by
  unfold IsPos
  simp [Ideal.ofBits, Ideal.ieee, -EReal.coe_mul]

end Cert.LibRealV

end
-- ==== Proof.RefValue.lean ====
/-
  The reference's result is the mean over the last axis.

  With every entry of the input a real number, each array the reference forms on its way to the weight is followed
  through the three classes of arrays "all real", "all non-negative real", "all positive real": the sums and the mean
  are real, the squared deviations non-negative, the divisor 64 − 1 positive (so the select keeps the quotient), the
  variance and its root non-negative, the exponent p at least 2, |x|^p and the p-norm non-negative, the norm's ratio to
  itself plus a positive constant real, and its exponential e positive. The weight e does not vary along the last axis,
  so at (b, c, g) the numerator is (∑ₖ x(b,c,g,k)·e)/64, the denominator (∑ₖ e)/64 = e, and their quotient (∑ₖ x(b,c,g,k))/64.
-/
import proofs.«414761_j41188736369107_3_alg».proof.Proof.RefTerm
import proofs.«414761_j41188736369107_3_alg».proof.Proof.Spec
import proofs.«414761_j41188736369107_3_alg».proof.Proof.LibRealV

noncomputable section

open scoped BigOperators

namespace Cert.ReferenceIdeal.MeanValue

open Idealize.ShloMosaic Idealize.ShloMosaic.ValueIdx Cert.ReferenceIdeal Cert.ReferenceIdeal.Gen Cert.MeanSpec Cert.LibRealV

/-! ## The scalar constants -/

/-- The zero the sums start from is a non-negative real. -/
theorem zero_nonneg : NonnegV (constant (F := Ideal) S_ .f32 0x00000000#32) :=
  nonnegV_constant (r := 0) le_rfl (by rw [Ideal.ofBits_zero_f32, EReal.coe_zero])
/-- Sixty-four is a positive real. -/
theorem c64_pos : PosV (constant (F := Ideal) S_ .f32 0x42800000#32) := posV_constant (by norm_num) ofBits_64
/-- Two is a positive real. -/
theorem two_pos : PosV (constant (F := Ideal) S_ .f32 0x40000000#32) := posV_constant (by norm_num) ofBits_2
/-- One is a real. -/
theorem one_real : RealV (constant (F := Ideal) S_ .f32 0x3F800000#32) := realV_constant ofBits_1
/-- 2^20 is a positive real. -/
theorem big_pos : PosV (constant (F := Ideal) S_ .f32 0x49800000#32) := posV_constant (by norm_num) ofBits_2pow20
/-- The small constant added to the norm's sum is a positive real. -/
theorem tiny_pos : PosV (constant (F := Ideal) S_ .f32 0x322BCC77#32) := fun _ => ofBits_tiny

/-! ## The layout stages keep each class -/

section Stages
variable {y : FVec Ideal S8x256x512x64 .f32} {v : FVec Ideal S8x256x512 .f32} {c : FVec Ideal S_ .f32}
  {w : FVec Ideal S8x256x512x1 .f32}

/-- The sum along the last axis of a real array is real. -/
theorem sumK_real (hy : RealV y) : RealV (Term.sumK y) := realV_hostReduceAdd _ _ _ _ hy zero_nonneg.real
/-- The sum along the last axis of a non-negative array is non-negative. -/
theorem sumK_nonneg (hy : NonnegV y) : NonnegV (Term.sumK y) := nonnegV_hostReduceAdd _ _ _ _ hy zero_nonneg
/-- Adding a unit last axis keeps an array real. -/
theorem keep_real (hv : RealV v) : RealV (Term.keep v) := realV_broadcastInDim _ hv
/-- Adding a unit last axis keeps an array non-negative. -/
theorem keep_nonneg (hv : NonnegV v) : NonnegV (Term.keep v) := nonnegV_broadcastInDim _ hv
/-- A real scalar spread over a column is real. -/
theorem splat1_real (hc : RealV c) : RealV (Term.splat1 c) := realV_broadcastInDim _ hc
/-- A positive scalar spread over a column is positive. -/
theorem splat1_pos (hc : PosV c) : PosV (Term.splat1 c) := posV_broadcastInDim _ hc
/-- A real column spread along the last axis is real. -/
theorem wide_real (hw : RealV w) : RealV (Term.wide w) := realV_broadcastInDim _ hw

end Stages

/-! ## The reference's stages, in order -/

section Chain
variable {x : FVec Ideal S8x256x512x64 .f32}

/-- The mean along the last axis is real: a real sum over the real 64. -/
theorem meanCol_real (hx : RealV x) : RealV (Term.meanCol x) :=
  realV_hostDivf (keep_real (sumK_real hx)) (splat1_pos c64_pos)

/-- The squared deviation is a non-negative real. -/
theorem sqDev_nonneg (hx : RealV x) : NonnegV (Term.sqDev x) :=
  realV_mulf_self (realV_subf hx (wide_real (meanCol_real hx)))

/-- The number of degrees of freedom is 64 − 1 = 63. -/
theorem dof_apply (i : S_.Idx) : Term.dof (F := Ideal) i = ((63 : ℝ) : EReal) := by
  show Ideal.ofBits .f32 0x42800000#32 - (((1#32 : BitVec 32).toInt : ℝ) : EReal) = _
  rw [ofBits_64, show (1#32 : BitVec 32).toInt = 1 by decide, ← EReal.coe_sub]
  norm_num
/-- It is positive. -/
theorem dof_pos : PosV (Term.dof (F := Ideal)) := fun i => ⟨63, by norm_num, dof_apply i⟩

/-- The sum of squared deviations over 63 is a non-negative real. -/
theorem varRaw_nonneg (hx : RealV x) : NonnegV (Term.varRaw x) :=
  nonnegV_hostDivf (keep_nonneg (sumK_nonneg (sqDev_nonneg hx))) (splat1_pos dof_pos)

/-- Since 63 > 0 the select keeps the quotient. -/
theorem variance_eq (x : FVec Ideal S8x256x512x64 .f32) : Term.variance x = Term.varRaw x := by
  unfold Term.variance
  refine select_of_all_one _ _ _ fun i => ?_
  show Ideal.cmp .ogt (Term.dof (F := Ideal) _) (Ideal.ofBits .f32 0x00000000#32) = 1#1
  rw [dof_apply, Ideal.ofBits_zero_f32]
  have : (0 : EReal) < ((63 : ℝ) : EReal) := by exact_mod_cast (by norm_num : (0 : ℝ) < 63)
  simp [Ideal.cmp, this]

/-- The standard deviation is a non-negative real. -/
theorem stdDev_nonneg (hx : RealV x) : NonnegV (Term.stdDev x) := by
  unfold Term.stdDev; rw [variance_eq]; exact nonnegV_hostSqrt (varRaw_nonneg hx)

/-- The exponent p = 2 + log(1 + a non-negative real) is a positive real. -/
theorem pExp_pos (hx : RealV x) : PosV (Term.pExp x) :=
  posV_addf_nonneg two_pos
    (nonnegV_hostLog1p (nonnegV_hostDivf (nonnegV_hostReduceAdd _ _ _ _ (stdDev_nonneg hx) zero_nonneg) big_pos))

/-- |x|^p is a non-negative real. -/
theorem powAbs_nonneg (hx : RealV x) : NonnegV (Term.powAbs x) :=
  nonnegV_hostPowf (realV_hostAbsf hx) (realV_broadcastInDim _ (posV_real (pExp_pos hx)))

/-- The p-norm is a non-negative real. -/
theorem normCol_nonneg (hx : RealV x) : NonnegV (Term.normCol x) :=
  nonnegV_hostPowf (keep_nonneg (sumK_nonneg (powAbs_nonneg hx))) (splat1_real (realV_hostDivf one_real (pExp_pos hx)))

/-- The norm over (itself plus a positive constant) is real. -/
theorem ratioCol_real (hx : RealV x) : RealV (Term.ratioCol x) :=
  realV_hostDivf (normCol_nonneg hx).real
    (nonnegV_addf_pos (keep_nonneg (nonnegV_hostReduceAdd _ _ _ _ (normCol_nonneg hx) zero_nonneg)) (splat1_pos tiny_pos))

/-- The weight, its exponential, is a positive real. -/
theorem weightCol_pos (hx : RealV x) : PosV (Term.weightCol x) := realV_hostExp (ratioCol_real hx)

end Chain

/-! ## The last two sums, read at an index -/

/-- Summing the last axis of [8, 256, 512, 64] leaves [8, 256, 512]: the witness that names the inserted index. -/
theorem reduces_last : S8x256x512x64.Reduces [3] S8x256x512 := by decide

/-- The index over (b, c, g) with k inserted on the last axis is (b, c, g, k). -/
theorem lift_eq (j : S8x256x512.Idx) (k : Fin 64) : reduces_last.lift j k = ix4 (j 0) (j 1) (j 2) k := by
  funext a
  apply Fin.ext
  match a with
  | ⟨0, _⟩ => rfl
  | ⟨1, _⟩ => rfl
  | ⟨2, _⟩ => rfl
  | ⟨3, _⟩ => rfl

/-- The sum along the last axis at (b, c, g) is the sum over k of the entries (b, c, g, k): the zero it starts from adds
    nothing. -/
theorem sumK_apply (y : FVec Ideal S8x256x512x64 .f32) (j : S8x256x512.Idx) :
    Term.sumK y j = ∑ k : Fin 64, y (ix4 (j 0) (j 1) (j 2) k) := by
  show Ideal.hostReduceAdd reducesTo_S8x256x512x64_S8x256x512_d3 y (Ideal.ofBits .f32 0x00000000#32) j = _
  rw [Ideal.hostReduceAdd_single _ reduces_last, Ideal.ofBits_zero_f32, zero_add]
  exact Finset.sum_congr rfl fun k _ => congrArg y (lift_eq j k)

/-- A column spread along the last axis reads, at (b, c, g, k), the column's entry (b, c, g, 0) whatever k is. -/
theorem wide_apply (w : FVec Ideal S8x256x512x1 .f32) (a : Fin 8) (b : Fin 256) (c : Fin 512) (k : Fin 64) :
    Term.wide w (ix4 a b c k) = w (ix4 a b c 0) := by
  show w _ = w _
  congr 1
  funext d
  apply Fin.ext
  match d with
  | ⟨0, _⟩ => rfl
  | ⟨1, _⟩ => rfl
  | ⟨2, _⟩ => rfl
  | ⟨3, _⟩ => rfl

/-- The divisor array is 64 everywhere. -/
theorem c64_apply (j : S8x256x512.Idx) : Term.c64 (F := Ideal) j = ((64 : ℝ) : EReal) := ofBits_64

/-- For a real input x and a positive real column w: the mean of x·w over the mean of w, both along the last axis with
    w spread along it, is the mean of x. At (b, c, g), with e = w(b, c, g, 0) and rₖ = x(b, c, g, k):
    ((∑ₖ rₖ)·e / 64) / (64·e / 64) = (∑ₖ rₖ) / 64, since e ≠ 0. -/
theorem ratio_apply (x : FVec Ideal S8x256x512x64 .f32) (w : FVec Ideal S8x256x512x1 .f32) (hx : RealV x) (hw : PosV w)
    (j : S8x256x512.Idx) :
    Ideal.div (Ideal.div (Term.sumK (mulf x (Term.wide w)) j) (Term.c64 (F := Ideal) j))
      (Ideal.div (Term.sumK (Term.wide w) j) (Term.c64 (F := Ideal) j)) = meanK x j := by
  obtain ⟨e, he0, he⟩ := hw (ix4 (j 0) (j 1) (j 2) 0)
  choose r hr using hx
  have hwide : ∀ k : Fin 64, Term.wide w (ix4 (j 0) (j 1) (j 2) k) = (e : EReal) :=
    fun k => (wide_apply w _ _ _ k).trans he
  have hup : Term.sumK (mulf x (Term.wide w)) j = (((∑ k : Fin 64, r (ix4 (j 0) (j 1) (j 2) k)) * e : ℝ) : EReal) := by
    rw [sumK_apply, Finset.sum_mul, ← coe_finset_sum]
    exact Finset.sum_congr rfl fun k _ => by rw [mulf_apply, hwide k, hr, EReal.coe_mul]
  have hdown : Term.sumK (Term.wide w) j = ((64 * e : ℝ) : EReal) := by
    rw [sumK_apply, Finset.sum_congr rfl fun k _ => hwide k, coe_finset_sum]
    simp
  have hmean : meanK x j = (((∑ k : Fin 64, r (ix4 (j 0) (j 1) (j 2) k)) / 64 : ℝ) : EReal) := by
    unfold meanK
    rw [ofBits_64, Finset.sum_congr rfl fun k _ => hr _, coe_finset_sum, div_coe_coe _ (by norm_num)]
  have hd : (64 * e / 64 : ℝ) ≠ 0 := by positivity
  rw [hup, hdown, c64_apply, hmean, div_coe_coe _ (by norm_num), div_coe_coe _ (by norm_num), div_coe_coe _ hd]
  congr 1
  field_simp

/-- The reference's result is the mean over the last axis. -/
theorem refOut_eq_meanK (x : FVec Ideal S8x256x512x64 .f32) (hx : RealV x) :
    Term.refOut (F := Ideal) x = meanK x := by
  funext j
  exact ratio_apply x (Term.weightCol x) hx (weightCol_pos hx) j

end Cert.ReferenceIdeal.MeanValue

end
-- ==== Proof.Finite.lean ====
/-
  Reading the finiteness precondition back: if the printed predicate "every |x i| is strictly below +infinity, all of
  these bits and-ed into one" evaluates to 1 on an array x of extended reals, then every entry of x is a real number.

  The and-reduction over all four axes being 1 forces each compared bit to be 1. At one entry the bit is the truth value
  of  max (x i) (−x i) < ⊤ : the absolute value of an extended real is the larger of it and its negation, and the float
  pattern 0x7F800000 (zero sign, all-ones exponent, zero fraction) denotes ⊤. Neither infinity passes that test, since
  max ⊥ ⊤ = ⊤ and max ⊤ ⊥ = ⊤, so the entry is the image of a real.
-/
import proofs.«414761_j41188736369107_3_alg».proof.Pre_finite_inputs
import proofs.«414761_j41188736369107_3_alg».proof.Proof.Gen.Pre_finite_inputs
import proofs.«414761_j41188736369107_3_alg».proof.Proof.Spec
import Idealize.ShloMosaic.Lib.ReduceAll
import Idealize.ShloMosaic.Lib.StableHlo.Predicate
import Idealize.ShloMosaic.PureOps.Ideal.Laws

noncomputable section

namespace Cert.Pre_finite_inputs.Decode

open Idealize.ShloMosaic Cert.Pre_finite_inputs Cert.MeanSpec

/-- The rank-0 shape has exactly one index: two indices are functions out of the empty set of axes. -/
instance : Subsingleton S_.Idx := ⟨fun a b => funext fun d => d.elim0⟩

/-- The pattern with zero sign, exponent field all ones and zero fraction denotes +infinity. -/
theorem top_bits : Ideal.ofBits .f32 0x7F800000#32 = (⊤ : EReal) := by
  simp [Ideal.ofBits, Ideal.ieee]

/-- An extended real whose absolute value, max a (−a), is strictly below ⊤ is a real number:
    at ⊥ the negation is ⊤, at ⊤ the value itself is, and in both cases the maximum is ⊤. -/
theorem real_of_abs_lt_top (a : EReal) (ha : max a (-a) < (⊤ : EReal)) : ∃ r : ℝ, a = (r : EReal) := by
  induction a using EReal.rec with
  | bot => simp at ha
  | top => simp at ha
  | coe r => exact ⟨r, rfl⟩

theorem real_of_fn [Cert.Pre_finite_inputs.Facts] (x : FVec Ideal S8x256x512x64 .f32)
    (h : Cert.Pre_finite_inputs.fn (F := Ideal) x = (fun _ => 1#1)) : RealV x := by
  intro i
  -- the predicate's one result bit, read at the only index of the rank-0 result
  have h0 := congrFun h (fun d => d.elim0)
  dsimp only [Cert.Pre_finite_inputs.fn] at h0
  -- an and-fold from 1 that ends at 1 met only 1s: the compared bit at i is 1
  have hi := Host.reduce_andi_all _ _ _ _ _ h0 i
  -- that bit is the truth value of |x i| < ⊤, the broadcast scalar reading the +infinity pattern at every index
  have hlt : max (x i) (-(x i)) < (⊤ : EReal) := by
    simp only [cmpf, Host.absf, broadcastInDim, constant, Ideal.cmpf_def, Ideal.hostAbsf_def, Ideal.absf_def,
      Ideal.cmp, Ideal.ofBits_def, top_bits, StableHlo.Predicate.ofBool_eq_one_iff, decide_eq_true_eq] at hi
    exact hi
  exact real_of_abs_lt_top (x i) hlt

end Cert.Pre_finite_inputs.Decode

end
-- ==== Proof.lean ====
/-
  The mean over the last axis, computed two ways.

  The kernel reshapes x : [8, 256, 512, 64] to 2048 rows, sums each row's last axis block by block (64 blocks of 32 rows)
  and divides by sixty-four, then reshapes back: its result at (b, c, g) is the sum over k of x(b, c, g, k) over 64.
  The reference weights x by e = exp(n / (n + ε)), where n is a p-norm along the last axis, and divides the mean of
  x · e by the mean of e spread along that axis. The weight does not depend on k, so wherever it is a positive real number
  it comes out of the sum and cancels: the quotient is the mean of x again. On an input whose entries are all real numbers
  every stage of the reference is a real number (the variance and the norm non-negative, the exponent p at least two), so
  the weight is the exponential of a real number: positive and real.

  The three frames are the generated ones (for the reference, its run with the result dropped); the idealized kernel is
  the kernel's own text read over the extended reals, so nothing is owed for it; the equivalence is the kernel's run to the
  mean, the reference's run to its staged term, and the identity of the two on real inputs, which the precondition
  (every |x i| below +infinity) gives.
-/
import proofs.«414761_j41188736369107_3_alg».proof.Defs
import proofs.«414761_j41188736369107_3_alg».proof.Proof.Gen.Kernel
import proofs.«414761_j41188736369107_3_alg».proof.Proof.Gen.Kernel.Frame
import proofs.«414761_j41188736369107_3_alg».proof.Proof.Gen.KernelIdeal
import proofs.«414761_j41188736369107_3_alg».proof.Proof.Gen.KernelIdeal.Frame
import proofs.«414761_j41188736369107_3_alg».proof.Proof.Gen.ReferenceIdeal
import proofs.«414761_j41188736369107_3_alg».proof.Proof.Gen.Pre_finite_inputs
import proofs.«414761_j41188736369107_3_alg».proof.Proof.Spec
import proofs.«414761_j41188736369107_3_alg».proof.Proof.KerValue
import proofs.«414761_j41188736369107_3_alg».proof.Proof.RefRun
import proofs.«414761_j41188736369107_3_alg».proof.Proof.RefValue
import proofs.«414761_j41188736369107_3_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its argument as it was. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference runs and leaves its argument as it was: its run, the result forgotten. -/
theorem frame_referenceIdeal : Cert.frame_ReferenceIdeal := fun m ρ _ =>
  (θ_run Cert.ReferenceIdeal.defs _ _).mono (fun _ h c => (h c).2) (Cert.ReferenceIdeal.Line.run (F := Ideal) m ρ)

/-- No operation of the kernel was rewritten for the reading over the extended reals. -/
theorem preserves : Cert.preserves_Kernel_KernelIdeal := trivial

/-- From memories that agree on x, both programs end with the mean of x over its last axis: the kernel by its run, the
    reference because its staged term is that mean on an input of real numbers, which the precondition provides. -/
theorem algebraic : Cert.algebraic_KernelIdeal_ReferenceIdeal := by
  intro m ρ m' ρ' hpre hagree
  refine ⟨fun c => Cert.MeanSpec.meanK (m ((c.tc : Thread Cert.KernelIdeal.nD Cert.KernelIdeal.τ).loc Cert.KernelIdeal.main_arg0)),
    Cert.KernelIdeal.MeanValue.run_mean m ρ, ?_⟩
  refine (θ_run Cert.ReferenceIdeal.defs _ _).mono (fun _ h c => ⟨(h c).1.trans ?_, (h c).2⟩)
    (Cert.ReferenceIdeal.Line.run (F := Ideal) m' ρ')
  rw [hagree c]
  exact Cert.ReferenceIdeal.MeanValue.refOut_eq_meanK _ (Cert.Pre_finite_inputs.Decode.real_of_fn _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
